-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S170000x128 : Shape := ⟨2, ![170000, 128]⟩
abbrev S2x1200000 : Shape := ⟨2, ![2, 1200000]⟩
abbrev S40x128 : Shape := ⟨2, ![40, 128]⟩
abbrev S40 : Shape := ⟨1, ![40]⟩
abbrev S_ : Shape := ⟨0, ![]⟩

class Facts : Prop where
  bcast_S_S170000x128 : S_.BroadcastsInDim S170000x128 (![] : Fin 0 → Fin S170000x128.rank)
  reducesTo_S170000x128_S_d0_1 : S170000x128.ReducesTo [0, 1] S_
  h_S_ : 0 < S_.numel
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S170000x128 .f32) (main_arg1 : IVec S2x1200000 32) (main_arg2 : FVec F S40x128 .f32) (main_arg3 : FVec F S40 .f32) : IVec S_ 1 :=
  let main_v0 : FVec F S170000x128 .f32 := Host.absf main_arg0
  let main_cst : FVec F S_ .f32 := constant S_ .f32 0x7F800000#32
  let main_v1 : FVec F S170000x128 .f32 := broadcastInDim S170000x128 ![] bcast_S_S170000x128 main_cst
  let main_v2 : IVec S170000x128 1 := cmpf .olt main_v0 main_v1
  let main_c : IVec S_ 1 := constantI S_ 1 1#1
  let main_v3 : IVec S_ 1 := (fun x v => Host.reduce IntOp.andi x v reducesTo_S170000x128_S_d0_1 h_S_) main_v2 main_c
  let main_v4 : FVec F S40x128 .f32 := Host.absf main_arg2
  let main_cst_0 : FVec F S_ .f32 := constant S_ .f32 0x7F800000#32
  let main_v5 : FVec F S40x128 .f32 := broadcastInDim S40x128 ![] bcast_S_S40x128 main_cst_0
  let main_v6 : IVec S40x128 1 := cmpf .olt main_v4 main_v5
  let main_c_1 : IVec S_ 1 := constantI S_ 1 1#1
  let main_v7 : IVec S_ 1 := (fun x v => Host.reduce IntOp.andi x v reducesTo_S40x128_S_d0_1 h_S_) main_v6 main_c_1
  let main_v8 : IVec S_ 1 := andi main_v3 main_v7
  let main_v9 : FVec F S40 .f32 := Host.absf main_arg3
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S170000x128 : Shape := ⟨2, ![170000, 128]⟩
abbrev S2x1200000 : Shape := ⟨2, ![2, 1200000]⟩
abbrev S40x128 : Shape := ⟨2, ![40, 128]⟩
abbrev S40 : Shape := ⟨1, ![40]⟩
abbrev S170000 : Shape := ⟨1, ![170000]⟩
abbrev S1x1200000 : Shape := ⟨2, ![1, 1200000]⟩
abbrev S1200000 : Shape := ⟨1, ![1200000]⟩
abbrev S1370000 : Shape := ⟨1, ![1370000]⟩
abbrev S_ : Shape := ⟨0, ![]⟩
abbrev S1370000x1 : Shape := ⟨2, ![1370000, 1]⟩
abbrev S1370000x128 : Shape := ⟨2, ![1370000, 128]⟩
abbrev S1x40 : Shape := ⟨2, ![1, 40]⟩
abbrev S170000x40 : Shape := ⟨2, ![170000, 40]⟩
abbrev S2000x128 : Shape := ⟨2, ![2000, 128]⟩
abbrev S2000x40 : Shape := ⟨2, ![2000, 40]⟩
abbrev S128x40 : Shape := ⟨2, ![128, 40]⟩
abbrev S2000 : Shape := ⟨1, ![2000]⟩
abbrev S2000x1 : Shape := ⟨2, ![2000, 1]⟩

abbrev nBuf : Space → Nat
  | .hbm => 78
  | .vmem => 6
  | .smem => 0
  | _ => 0

abbrev bufTy : (tb : Table) → Fin (tcTables nBuf tb) → BufTy
  | .hbm, ⟨0, _⟩ => ⟨S170000x128, .f32⟩
  | .hbm, ⟨1, _⟩ => ⟨S2x1200000, .i32⟩
  | .hbm, ⟨2, _⟩ => ⟨S40x128, .f32⟩
  | .hbm, ⟨3, _⟩ => ⟨S40, .f32⟩
  | .hbm, ⟨4, _⟩ => ⟨S170000, .i32⟩
  | .hbm, ⟨5, _⟩ => ⟨S1x1200000, .i32⟩
  | .hbm, ⟨6, _⟩ => ⟨S1200000, .i32⟩
  | .hbm, ⟨7, _⟩ => ⟨S1370000, .i32⟩
  | .hbm, ⟨8, _⟩ => ⟨S1x1200000, .i32⟩
  | .hbm, ⟨9, _⟩ => ⟨S1200000, .i32⟩
  | .hbm, ⟨10, _⟩ => ⟨S1370000, .i32⟩
  | .hbm, ⟨11, _⟩ => ⟨S_, .f32⟩
  | .hbm, ⟨12, _⟩ => ⟨S1370000, .f32⟩
  | .hbm, ⟨13, _⟩ => ⟨S_, .f32⟩
  | .hbm, ⟨14, _⟩ => ⟨S170000, .f32⟩
  | .hbm, ⟨15, _⟩ => ⟨S1370000x1, .i32⟩
  | .hbm, ⟨16, _⟩ => ⟨S170000, .f32⟩
  | .hbm, ⟨17, _⟩ => ⟨S_, .f32⟩
  | .hbm, ⟨18, _⟩ => ⟨S170000, .f32⟩
  | .hbm, ⟨19, _⟩ => ⟨S170000, .i1⟩
  | .hbm, ⟨20, _⟩ => ⟨S170000, .f32⟩
  | .hbm, ⟨21, _⟩ => ⟨S_, .f32⟩
  | .hbm, ⟨22, _⟩ => ⟨S_, .f32⟩
  | .hbm, ⟨23, _⟩ => ⟨S170000, .f32⟩
  | .hbm, ⟨24, _⟩ => ⟨S170000, .f32⟩
  | .hbm, ⟨25, _⟩ => ⟨S_, .i32⟩
  | .hbm, ⟨26, _⟩ => ⟨S1370000, .i32⟩
  | .hbm, ⟨27, _⟩ => ⟨S1370000, .i1⟩
  | .hbm, ⟨28, _⟩ => ⟨S_, .i32⟩
  | .hbm, ⟨29, _⟩ => ⟨S1370000, .i32⟩
  | .hbm, ⟨30, _⟩ => ⟨S1370000, .i32⟩
  | .hbm, ⟨31, _⟩ => ⟨S1370000, .i32⟩
  | .hbm, ⟨32, _⟩ => ⟨S1370000x1, .i32⟩
  | .hbm, ⟨33, _⟩ => ⟨S1370000, .f32⟩
  | .hbm, ⟨34, _⟩ => ⟨S_, .i32⟩
  | .hbm, ⟨35, _⟩ => ⟨S1370000, .i32⟩
  | .hbm, ⟨36, _⟩ => ⟨S1370000, .i1⟩
  | .hbm, ⟨37, _⟩ => ⟨S_, .i32⟩
  | .hbm, ⟨38, _⟩ => ⟨S1370000, .i32⟩
  | .hbm, ⟨39, _⟩ => ⟨S1370000, .i32⟩
  | .hbm, ⟨40, _⟩ => ⟨S1370000, .i32⟩
  | .hbm, ⟨41, _⟩ => ⟨S1370000x1, .i32⟩
  | .hbm, ⟨42, _⟩ => ⟨S1370000, .f32⟩
  | .hbm, ⟨43, _⟩ => ⟨S1370000, .f32⟩
  | .hbm, ⟨44, _⟩ => ⟨S1370000x1, .f32⟩
  | .hbm, ⟨45, _⟩ => ⟨S_, .i32⟩
  | .hbm, ⟨46, _⟩ => ⟨S1370000, .i32⟩
  | .hbm, ⟨47, _⟩ => ⟨S1370000, .i1⟩
  | .hbm, ⟨48, _⟩ => ⟨S_, .i32⟩
  | .hbm, ⟨49, _⟩ => ⟨S1370000, .i32⟩
  | .hbm, ⟨50, _⟩ => ⟨S1370000, .i32⟩
  | .hbm, ⟨51, _⟩ => ⟨S1370000, .i32⟩
  | .hbm, ⟨52, _⟩ => ⟨S1370000x1, .i32⟩
  | .hbm, ⟨53, _⟩ => ⟨S1370000x128, .f32⟩
  | .hbm, ⟨54, _⟩ => ⟨S1370000x128, .f32⟩
  | .hbm, ⟨55, _⟩ => ⟨S1370000x128, .f32⟩
  | .hbm, ⟨56, _⟩ => ⟨S_, .f32⟩
  | .hbm, ⟨57, _⟩ => ⟨S170000x128, .f32⟩
  | .hbm, ⟨58, _⟩ => ⟨S1370000x1, .i32⟩
  | .hbm, ⟨59, _⟩ => ⟨S170000x128, .f32⟩
  | .hbm, ⟨60, _⟩ => ⟨S1370000x1, .f32⟩
  | .hbm, ⟨61, _⟩ => ⟨S_, .i32⟩
  | .hbm, ⟨62, _⟩ => ⟨S1370000, .i32⟩
  | .hbm, ⟨63, _⟩ => ⟨S1370000, .i1⟩
  | .hbm, ⟨64, _⟩ => ⟨S_, .i32⟩
  | .hbm, ⟨65, _⟩ => ⟨S1370000, .i32⟩
  | .hbm, ⟨66, _⟩ => ⟨S1370000, .i32⟩
  | .hbm, ⟨67, _⟩ => ⟨S1370000, .i32⟩
  | .hbm, ⟨68, _⟩ => ⟨S1370000x1, .i32⟩
  | .hbm, ⟨69, _⟩ => ⟨S1370000x128, .f32⟩
  | .hbm, ⟨70, _⟩ => ⟨S1370000x128, .f32⟩
  | .hbm, ⟨71, _⟩ => ⟨S1370000x128, .f32⟩
  | .hbm, ⟨72, _⟩ => ⟨S_, .f32⟩
  | .hbm, ⟨73, _⟩ => ⟨S170000x128, .f32⟩
  | .hbm, ⟨74, _⟩ => ⟨S1370000x1, .i32⟩
  | .hbm, ⟨75, _⟩ => ⟨S170000x128, .f32⟩
  | .hbm, ⟨76, _⟩ => ⟨S1x40, .f32⟩
  | .hbm, ⟨77, _⟩ => ⟨S170000x40, .f32⟩
  | .local _ .vmem, ⟨0, _⟩ => ⟨S2000x128, .f32⟩
  | .local _ .vmem, ⟨1, _⟩ => ⟨S2000x128, .f32⟩
  | .local _ .vmem, ⟨2, _⟩ => ⟨S40x128, .f32⟩
  | .local _ .vmem, ⟨3, _⟩ => ⟨S1x40, .f32⟩
  | .local _ .vmem, ⟨4, _⟩ => ⟨S2000x40, .f32⟩
  | .local _ .vmem, ⟨5, _⟩ => ⟨S2000x40, .f32⟩
  | _, _ => ⟨S170000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![85], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S170000_S1370000_d0 : Shape.Concatenates [S1200000, S170000] S1370000 0
  slices_S2x1200000_S1x1200000_1_0 : S2x1200000.Slices ![1, 0] S1x1200000
  bcast_S_S1370000 : S_.BroadcastsInDim S1370000 (![] : Fin 0 → Fin S1370000.rank)
  bcast_S_S170000 : S_.BroadcastsInDim S170000 (![] : Fin 0 → Fin S170000.rank)
  bcast_S1370000_S1370000x1_0 : S1370000.BroadcastsInDim S1370000x1 (![0] : Fin 1 → Fin S1370000x1.rank)
  bcast_S1370000x1_S1370000x128_0_1 : S1370000x1.BroadcastsInDim S1370000x128 (![0, 1] : Fin 2 → Fin S1370000x128.rank)
  bcast_S_S170000x128 : S_.BroadcastsInDim S170000x128 (![] : Fin 0 → Fin S170000x128.rank)
  shapeCasts_S40_S1x40 : S40.ShapeCasts S1x40
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S40x128_S40x128_0_0 : ∀ a, (![0, 0] : Fin 2 → Nat) a + S40x128.size a ≤ S40x128.size a
  h_S40x128 : 0 < S40x128.numel
  transposes_S40x128_p1_0_S128x40 : S40x128.Transposes [1, 0] S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S170000_S1370000x1_S1370000_n_0_0_1_wf : ScatterDims.WF S170000 S1370000x1 S1370000 [] [0] [0] 1
  gather_S170000_S1370000x1_S1370000_n_0_n_n_0_1_1_wf : GatherDims.WF S170000 S1370000x1 S1370000 [] [0] [] [0] [] 1 ![1]
  gather_S170000x128_S1370000x1_S1370000x128_1_0_n_n_0_1_1128_wf : GatherDims.WF S170000x128 S1370000x1 S1370000x128 [1] [0] [] [0] [] 1 ![1, 128]
  scatter_S170000x128_S1370000x1_S1370000x128_1_0_0_1_wf : ScatterDims.WF S170000x128 S1370000x1 S1370000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S170000x128.size a
  hwx0_0 : ∀ i : grid0.Coords, EltTy.bits .f32 = 32 ∨ (Rect.block (s := S170000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x128.size a ≤ S40x128.size a
  hwx0_1 : ∀ i : grid0.Coords, EltTy.bits .f32 = 32 ∨ (Rect.block (s := S40x128) S40x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x40.size a ≤ S1x40.size a
  hwx0_2 : ∀ i : grid0.Coords, EltTy.bits .f32 = 32 ∨ (Rect.block (s := S1x40) S1x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x40.size a ≤ S170000x40.size a
  hwx0_3 : ∀ i : grid0.Coords, EltTy.bits .f32 = 32 ∨ (Rect.block (s := S170000x40) S2000x40.size (cc0_transform_3 i) (hinb0_3 i)).WholeWords (EltTy.packing .f32)

variable [Facts₀]

def scatter_S170000_S1370000x1_S1370000_n_0_0_1 : ScatterDims S170000 S1370000x1 S1370000 where
  updateWindowDims := []
  insertedWindowDims := [0]
  scatterDimsToOperandDims := [0]
  indexVectorDim := 1
  wf := scatter_S170000_S1370000x1_S1370000_n_0_0_1_wf
def gather_S170000_S1370000x1_S1370000_n_0_n_n_0_1_1 : GatherDims S170000 S1370000x1 S1370000 where
  offsetDims := []
  collapsedSliceDims := [0]
  operandBatchingDims := []
  startIndicesBatchingDims := []
  startIndexMap := [0]
  indexVectorDim := 1
  sliceSizes := ![1]
  wf := gather_S170000_S1370000x1_S1370000_n_0_n_n_0_1_1_wf
def gather_S170000x128_S1370000x1_S1370000x128_1_0_n_n_0_1_1128 : GatherDims S170000x128 S1370000x1 S1370000x128 where
  offsetDims := [1]
  collapsedSliceDims := [0]
  operandBatchingDims := []
  startIndicesBatchingDims := []
  startIndexMap := [0]
  indexVectorDim := 1
  sliceSizes := ![1, 128]
  wf := gather_S170000x128_S1370000x1_S1370000x128_1_0_n_n_0_1_1128_wf
def scatter_S170000x128_S1370000x1_S1370000x128_1_0_0_1 : ScatterDims S170000x128 S1370000x1 S1370000x128 where
  updateWindowDims := [1]
  insertedWindowDims := [0]
  scatterDimsToOperandDims := [0]
  indexVectorDim := 1
  wf := scatter_S170000x128_S1370000x1_S1370000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v55) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S40x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v56) S1x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S2000x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S170000x128 : Shape := ⟨2, ![170000, 128]⟩
abbrev S2x1200000 : Shape := ⟨2, ![2, 1200000]⟩
abbrev S40x128 : Shape := ⟨2, ![40, 128]⟩
abbrev S40 : Shape := ⟨1, ![40]⟩
abbrev S170000 : Shape := ⟨1, ![170000]⟩
abbrev S1x1200000 : Shape := ⟨2, ![1, 1200000]⟩
abbrev S1200000 : Shape := ⟨1, ![1200000]⟩
abbrev S1370000 : Shape := ⟨1, ![1370000]⟩
abbrev S_ : Shape := ⟨0, ![]⟩
abbrev S1370000x1 : Shape := ⟨2, ![1370000, 1]⟩
abbrev S1370000x128 : Shape := ⟨2, ![1370000, 128]⟩
abbrev S128x40 : Shape := ⟨2, ![128, 40]⟩
abbrev S170000x40 : Shape := ⟨2, ![170000, 40]⟩
abbrev S1x40 : Shape := ⟨2, ![1, 40]⟩
abbrev S170000x1 : Shape := ⟨2, ![170000, 1]⟩

abbrev nBuf : Space → Nat
  | .hbm => 96
  | .vmem => 0
  | .smem => 0
  | _ => 0

abbrev bufTy : (tb : Table) → Fin (tcTables nBuf tb) → BufTy
  | .hbm, ⟨0, _⟩ => ⟨S170000x128, .f32⟩
  | .hbm, ⟨1, _⟩ => ⟨S2x1200000, .i32⟩
  | .hbm, ⟨2, _⟩ => ⟨S40x128, .f32⟩
  | .hbm, ⟨3, _⟩ => ⟨S40, .f32⟩
  | .hbm, ⟨4, _⟩ => ⟨S170000, .i32⟩
  | .hbm, ⟨5, _⟩ => ⟨S1x1200000, .i32⟩
  | .hbm, ⟨6, _⟩ => ⟨S1200000, .i32⟩
  | .hbm, ⟨7, _⟩ => ⟨S1370000, .i32⟩
  | .hbm, ⟨8, _⟩ => ⟨S1x1200000, .i32⟩
  | .hbm, ⟨9, _⟩ => ⟨S1200000, .i32⟩
  | .hbm, ⟨10, _⟩ => ⟨S1370000, .i32⟩
  | .hbm, ⟨11, _⟩ => ⟨S_, .f32⟩
  | .hbm, ⟨12, _⟩ => ⟨S1370000, .f32⟩
  | .hbm, ⟨13, _⟩ => ⟨S_, .f32⟩
  | .hbm, ⟨14, _⟩ => ⟨S170000, .f32⟩
  | .hbm, ⟨15, _⟩ => ⟨S1370000x1, .i32⟩
  | .hbm, ⟨16, _⟩ => ⟨S170000, .f32⟩
  | .hbm, ⟨17, _⟩ => ⟨S_, .f32⟩
  | .hbm, ⟨18, _⟩ => ⟨S170000, .f32⟩
  | .hbm, ⟨19, _⟩ => ⟨S170000, .i1⟩
  | .hbm, ⟨20, _⟩ => ⟨S170000, .f32⟩
  | .hbm, ⟨21, _⟩ => ⟨S_, .f32⟩
  | .hbm, ⟨22, _⟩ => ⟨S_, .f32⟩
  | .hbm, ⟨23, _⟩ => ⟨S170000, .f32⟩
  | .hbm, ⟨24, _⟩ => ⟨S170000, .f32⟩
  | .hbm, ⟨25, _⟩ => ⟨S_, .i32⟩
  | .hbm, ⟨26, _⟩ => ⟨S1370000, .i32⟩
  | .hbm, ⟨27, _⟩ => ⟨S1370000, .i1⟩
  | .hbm, ⟨28, _⟩ => ⟨S_, .i32⟩
  | .hbm, ⟨29, _⟩ => ⟨S1370000, .i32⟩
  | .hbm, ⟨30, _⟩ => ⟨S1370000, .i32⟩
  | .hbm, ⟨31, _⟩ => ⟨S1370000, .i32⟩
  | .hbm, ⟨32, _⟩ => ⟨S1370000x1, .i32⟩
  | .hbm, ⟨33, _⟩ => ⟨S1370000, .f32⟩
  | .hbm, ⟨34, _⟩ => ⟨S_, .i32⟩
  | .hbm, ⟨35, _⟩ => ⟨S1370000, .i32⟩
  | .hbm, ⟨36, _⟩ => ⟨S1370000, .i1⟩
  | .hbm, ⟨37, _⟩ => ⟨S_, .i32⟩
  | .hbm, ⟨38, _⟩ => ⟨S1370000, .i32⟩
  | .hbm, ⟨39, _⟩ => ⟨S1370000, .i32⟩
  | .hbm, ⟨40, _⟩ => ⟨S1370000, .i32⟩
  | .hbm, ⟨41, _⟩ => ⟨S1370000x1, .i32⟩
  | .hbm, ⟨42, _⟩ => ⟨S1370000, .f32⟩
  | .hbm, ⟨43, _⟩ => ⟨S1370000, .f32⟩
  | .hbm, ⟨44, _⟩ => ⟨S1370000x1, .f32⟩
  | .hbm, ⟨45, _⟩ => ⟨S_, .i32⟩
  | .hbm, ⟨46, _⟩ => ⟨S1370000, .i32⟩
  | .hbm, ⟨47, _⟩ => ⟨S1370000, .i1⟩
  | .hbm, ⟨48, _⟩ => ⟨S_, .i32⟩
  | .hbm, ⟨49, _⟩ => ⟨S1370000, .i32⟩
  | .hbm, ⟨50, _⟩ => ⟨S1370000, .i32⟩
  | .hbm, ⟨51, _⟩ => ⟨S1370000, .i32⟩
  | .hbm, ⟨52, _⟩ => ⟨S1370000x1, .i32⟩
  | .hbm, ⟨53, _⟩ => ⟨S1370000x128, .f32⟩
  | .hbm, ⟨54, _⟩ => ⟨S1370000x128, .f32⟩
  | .hbm, ⟨55, _⟩ => ⟨S1370000x128, .f32⟩
  | .hbm, ⟨56, _⟩ => ⟨S_, .f32⟩
  | .hbm, ⟨57, _⟩ => ⟨S170000x128, .f32⟩
  | .hbm, ⟨58, _⟩ => ⟨S1370000x1, .i32⟩
  | .hbm, ⟨59, _⟩ => ⟨S170000x128, .f32⟩
  | .hbm, ⟨60, _⟩ => ⟨S1370000x1, .f32⟩
  | .hbm, ⟨61, _⟩ => ⟨S_, .i32⟩
  | .hbm, ⟨62, _⟩ => ⟨S1370000, .i32⟩
  | .hbm, ⟨63, _⟩ => ⟨S1370000, .i1⟩
  | .hbm, ⟨64, _⟩ => ⟨S_, .i32⟩
  | .hbm, ⟨65, _⟩ => ⟨S1370000, .i32⟩
  | .hbm, ⟨66, _⟩ => ⟨S1370000, .i32⟩
  | .hbm, ⟨67, _⟩ => ⟨S1370000, .i32⟩
  | .hbm, ⟨68, _⟩ => ⟨S1370000x1, .i32⟩
  | .hbm, ⟨69, _⟩ => ⟨S1370000x128, .f32⟩
  | .hbm, ⟨70, _⟩ => ⟨S1370000x128, .f32⟩
  | .hbm, ⟨71, _⟩ => ⟨S1370000x128, .f32⟩
  | .hbm, ⟨72, _⟩ => ⟨S_, .f32⟩
  | .hbm, ⟨73, _⟩ => ⟨S170000x128, .f32⟩
  | .hbm, ⟨74, _⟩ => ⟨S1370000x1, .i32⟩
  | .hbm, ⟨75, _⟩ => ⟨S170000x128, .f32⟩
  | .hbm, ⟨76, _⟩ => ⟨S128x40, .f32⟩
  | .hbm, ⟨77, _⟩ => ⟨S170000x40, .f32⟩
  | .hbm, ⟨78, _⟩ => ⟨S1x40, .f32⟩
  | .hbm, ⟨79, _⟩ => ⟨S170000x40, .f32⟩
  | .hbm, ⟨80, _⟩ => ⟨S170000x40, .f32⟩
  | .hbm, ⟨81, _⟩ => ⟨S_, .f32⟩
  | .hbm, ⟨82, _⟩ => ⟨S170000, .f32⟩
  | .hbm, ⟨83, _⟩ => ⟨S_, .f32⟩
  | .hbm, ⟨84, _⟩ => ⟨S170000, .f32⟩
  | .hbm, ⟨85, _⟩ => ⟨S170000, .f32⟩
  | .hbm, ⟨86, _⟩ => ⟨S170000x1, .f32⟩
  | .hbm, ⟨87, _⟩ => ⟨S170000x40, .f32⟩
  | .hbm, ⟨88, _⟩ => ⟨S170000x40, .f32⟩
  | .hbm, ⟨89, _⟩ => ⟨S170000x40, .f32⟩
  | .hbm, ⟨90, _⟩ => ⟨S_, .f32⟩
  | .hbm, ⟨91, _⟩ => ⟨S170000, .f32⟩
  | .hbm, ⟨92, _⟩ => ⟨S170000x1, .f32⟩
  | .hbm, ⟨93, _⟩ => ⟨S170000x1, .f32⟩
  | .hbm, ⟨94, _⟩ => ⟨S170000x40, .f32⟩
  | .hbm, ⟨95, _⟩ => ⟨S170000x40, .f32⟩
  | _, _ => ⟨S170000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v61 : Ref sig .tc := ⟨.hbm, 95, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S170000_S1370000_d0 : Shape.Concatenates [S1200000, S170000] S1370000 0
  slices_S2x1200000_S1x1200000_1_0 : S2x1200000.Slices ![1, 0] S1x1200000
  bcast_S_S1370000 : S_.BroadcastsInDim S1370000 (![] : Fin 0 → Fin S1370000.rank)
  bcast_S_S170000 : S_.BroadcastsInDim S170000 (![] : Fin 0 → Fin S170000.rank)
  bcast_S1370000_S1370000x1_0 : S1370000.BroadcastsInDim S1370000x1 (![0] : Fin 1 → Fin S1370000x1.rank)
  bcast_S1370000x1_S1370000x128_0_1 : S1370000x1.BroadcastsInDim S1370000x128 (![0, 1] : Fin 2 → Fin S1370000x128.rank)
  bcast_S_S170000x128 : S_.BroadcastsInDim S170000x128 (![] : Fin 0 → Fin S170000x128.rank)
  transposes_S40x128_S128x40_1_0 : S40x128.Transposes [1, 0] S128x40
  bcast_S40_S1x40_1 : S40.BroadcastsInDim S1x40 (![1] : Fin 1 → Fin S1x40.rank)
  bcast_S1x40_S170000x40_0_1 : S1x40.BroadcastsInDim S170000x40 (![0, 1] : Fin 2 → Fin S170000x40.rank)
  reducesTo_S170000x40_S170000_d1 : S170000x40.ReducesTo [1] S170000
  h_S_ : 0 < S_.numel
  bcast_S170000_S170000x1_0 : S170000.BroadcastsInDim S170000x1 (![0] : Fin 1 → Fin S170000x1.rank)
  bcast_S170000x1_S170000x40_0_1 : S170000x1.BroadcastsInDim S170000x40 (![0, 1] : Fin 2 → Fin S170000x40.rank)
  scatter_S170000_S1370000x1_S1370000_n_0_0_1_wf : ScatterDims.WF S170000 S1370000x1 S1370000 [] [0] [0] 1
  gather_S170000_S1370000x1_S1370000_n_0_n_n_0_1_1_wf : GatherDims.WF S170000 S1370000x1 S1370000 [] [0] [] [0] [] 1 ![1]
  gather_S170000x128_S1370000x1_S1370000x128_1_0_n_n_0_1_1128_wf : GatherDims.WF S170000x128 S1370000x1 S1370000x128 [1] [0] [] [0] [] 1 ![1, 128]
  scatter_S170000x128_S1370000x1_S1370000x128_1_0_0_1_wf : ScatterDims.WF S170000x128 S1370000x1 S1370000x128 [1] [0] [0] 1
  dot_S170000x128_S128x40_S170000x40_1_0_0_1_n_n_wf : DotDims.WF S170000x128 S128x40 S170000x40 [1] [0] [0] [1] [] []

variable [Facts₀]

def scatter_S170000_S1370000x1_S1370000_n_0_0_1 : ScatterDims S170000 S1370000x1 S1370000 where
  updateWindowDims := []
  insertedWindowDims := [0]
  scatterDimsToOperandDims := [0]
  indexVectorDim := 1
  wf := scatter_S170000_S1370000x1_S1370000_n_0_0_1_wf
def gather_S170000_S1370000x1_S1370000_n_0_n_n_0_1_1 : GatherDims S170000 S1370000x1 S1370000 where
  offsetDims := []
  collapsedSliceDims := [0]
  operandBatchingDims := []
  startIndicesBatchingDims := []
  startIndexMap := [0]
  indexVectorDim := 1
  sliceSizes := ![1]
  wf := gather_S170000_S1370000x1_S1370000_n_0_n_n_0_1_1_wf
def gather_S170000x128_S1370000x1_S1370000x128_1_0_n_n_0_1_1128 : GatherDims S170000x128 S1370000x1 S1370000x128 where
  offsetDims := [1]
  collapsedSliceDims := [0]
  operandBatchingDims := []
  startIndicesBatchingDims := []
  startIndexMap := [0]
  indexVectorDim := 1
  sliceSizes := ![1, 128]
  wf := gather_S170000x128_S1370000x1_S1370000x128_1_0_n_n_0_1_1128_wf
def scatter_S170000x128_S1370000x1_S1370000x128_1_0_0_1 : ScatterDims S170000x128 S1370000x1 S1370000x128 where
  updateWindowDims := [1]
  insertedWindowDims := [0]
  scatterDimsToOperandDims := [0]
  indexVectorDim := 1
  wf := scatter_S170000x128_S1370000x1_S1370000x128_1_0_0_1_wf
def dot_S170000x128_S128x40_S170000x40_1_0_0_1_n_n : DotDims S170000x128 S128x40 S170000x40 where
  lhsContracting := [1]
  rhsContracting := [0]
  lhsNonContracting := [0]
  rhsNonContracting := [1]
  lhsBatch := []
  rhsBatch := []
  wf := dot_S170000x128_S128x40_S170000x40_1_0_0_1_n_n_wf

class Facts : Prop extends Facts₀ where

variable [Facts]
-- ==== Proof.RefFold.lean ====
/-
  The reference's run, stated over its stages.

  The reference is a straight line of 92 host operations. Its final memory holds, at every buffer, the fold of the
  operations' results over the launch contents. Here that fold is read at the result buffer as the last stage
  `val_main_v61` of the four arguments, without ever forming the composed term: the line is cut where a value is used
  more than once (the two index vectors, the inverse square-root degrees, the edge weights, each hop's result, the
  logits, the shifted logits); after each cut the fold so far is replaced by an unknown valuation of which only the
  values still needed are recorded, and the next stretch is read over those.
-/
import proofs.«128257_j78030965834313_1_alg».proof.Proof.RefRead

set_option maxRecDepth 16384

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- A line of operations run from `V` is its tail run from what its first `k` operations leave. -/
theorem after_take_drop : ∀ (k : ℕ) (l : List (HloOp τ sig (Elt F))) (V : Valuation τ sig (Elt F)),
    after l V = after (l.drop k) (after (l.take k) V)
  | 0, _, _ => rfl
  | _ + 1, [], _ => rfl
  | k + 1, op :: l, V => by
    show after l (op.result V) = after (l.drop k) (after (l.take k) (op.result V))
    exact after_take_drop k l (op.result V)

/-- Contents carried to a typed reference's buffer and back are unchanged. -/
theorem ofBuf_toBuf {T : BufTy} (x : TRef sig T) (v : T.Contents (Elt F)) : x.ofBuf (x.toBuf v) = v := by
  show cast _ (cast _ v) = v
  simp only [cast_cast, cast_eq]

/-- Reading a buffer at a typed reference's type changes nothing but the type's spelling. -/
theorem ofBuf_heq {T : BufTy} (x : TRef sig T) (w : x.ref.ty.Contents (Elt F)) : HEq (x.ofBuf w) w := cast_heq _ _

/-- Nor does carrying contents to the buffer's type. -/
theorem toBuf_heq {T : BufTy} (x : TRef sig T) (v : T.Contents (Elt F)) : HEq (x.toBuf v) v := cast_heq _ _

variable (x0 : (⟨S170000x128, .f32⟩ : BufTy).Contents (Elt F)) (x1 : (⟨S2x1200000, .i32⟩ : BufTy).Contents (Elt F)) (x2 : (⟨S40x128, .f32⟩ : BufTy).Contents (Elt F)) (x3 : (⟨S40, .f32⟩ : BufTy).Contents (Elt F))

/-- What a valuation holds at the four arguments. -/
structure Args (W : Valuation τ sig (Elt F)) : Prop where
  a0 : W (Proc.devRef .tc main_arg0) = x0
  a1 : W (Proc.devRef .tc main_arg1) = x1
  a2 : W (Proc.devRef .tc main_arg2) = x2
  a3 : W (Proc.devRef .tc main_arg3) = x3

/-- After the first 7 operations: the source and target index vectors (edges, then one self-loop per node). -/
structure Live7 (W : Valuation τ sig (Elt F)) : Prop extends Args x0 x1 x2 x3 W where
  v3 : W (Proc.devRef .tc main_v3) = val_main_v3 (F := F) x1
  v6 : W (Proc.devRef .tc main_v6) = val_main_v6 (F := F) x1

theorem live7 (W : Valuation τ sig (Elt F)) (h : Args x0 x1 x2 x3 W) : Live7 x0 x1 x2 x3 (after (ops.take 7) W) := by
  simp only [ops, List.drop_succ_cons, List.drop_zero, List.take_succ_cons, List.take_zero]
  refine ⟨⟨?_, ?_, ?_, ?_⟩, ?_, ?_⟩
  · after_results; exact h.a0
  · after_results; exact h.a1
  · after_results; exact h.a2
  · after_results; exact h.a3
  · after_results; rw [h.a1]; rfl
  · after_results; rw [h.a1]; rfl

/-- After 21 operations: also the inverse square-root degrees (zero where the degree is zero). -/
structure Live21 (W : Valuation τ sig (Elt F)) : Prop extends Live7 x0 x1 x2 x3 W where
  v14 : W (Proc.devRef .tc main_v14) = val_main_v14 (F := F) x1

theorem live21 (W : Valuation τ sig (Elt F)) (h : Live7 x0 x1 x2 x3 W) :
    Live21 x0 x1 x2 x3 (after ((ops.drop 7).take 14) W) := by
  simp only [ops, List.drop_succ_cons, List.drop_zero, List.take_succ_cons, List.take_zero]
  refine ⟨⟨⟨?_, ?_, ?_, ?_⟩, ?_, ?_⟩, ?_⟩
  · after_results_simp; exact h.a0
  · after_results_simp; exact h.a1
  · after_results_simp; exact h.a2
  · after_results_simp; exact h.a3
  · after_results_simp; exact h.v3
  · after_results_simp; exact h.v6
  · after_results_simp
    try simp only [TRef.ofBuf, TRef.toBuf, cast_eq]
    rw [h.v6]; rfl

/-- After 40 operations: the index vectors and the edge weights (the product of the two endpoints' inverse
    square-root degrees). -/
structure Live40 (W : Valuation τ sig (Elt F)) : Prop extends Live7 x0 x1 x2 x3 W where
  v29 : W (Proc.devRef .tc main_v29) = val_main_v29 (F := F) x1

theorem live40 (W : Valuation τ sig (Elt F)) (h : Live21 x0 x1 x2 x3 W) :
    Live40 x0 x1 x2 x3 (after ((ops.drop 21).take 19) W) := by
  simp only [ops, List.drop_succ_cons, List.drop_zero, List.take_succ_cons, List.take_zero]
  refine ⟨⟨⟨?_, ?_, ?_, ?_⟩, ?_, ?_⟩, ?_⟩
  · after_results_simp; exact h.a0
  · after_results_simp; exact h.a1
  · after_results_simp; exact h.a2
  · after_results_simp; exact h.a3
  · after_results_simp; exact h.v3
  · after_results_simp; exact h.v6
  · after_results_simp
    rw [h.v3, h.v6, h.v14]; rfl

/-- After 56 operations: also the features after the first hop. -/
structure Live56 (W : Valuation τ sig (Elt F)) : Prop extends Live40 x0 x1 x2 x3 W where
  v42 : W (Proc.devRef .tc main_v42) = val_main_v42 (F := F) x0 x1

theorem live56 (W : Valuation τ sig (Elt F)) (h : Live40 x0 x1 x2 x3 W) :
    Live56 x0 x1 x2 x3 (after ((ops.drop 40).take 16) W) := by
  simp only [ops, List.drop_succ_cons, List.drop_zero, List.take_succ_cons, List.take_zero]
  refine ⟨⟨⟨⟨?_, ?_, ?_, ?_⟩, ?_, ?_⟩, ?_⟩, ?_⟩
  · after_results_simp; exact h.a0
  · after_results_simp; exact h.a1
  · after_results_simp; exact h.a2
  · after_results_simp; exact h.a3
  · after_results_simp; exact h.v3
  · after_results_simp; exact h.v6
  · after_results_simp; exact h.v29
  · after_results_simp
    rw [h.v3, h.v6, h.v29, h.a0]; rfl

/-- After 72 operations: the features after the second hop, and the weights and bias still to be used. -/
structure Live72 (W : Valuation τ sig (Elt F)) : Prop where
  a2 : W (Proc.devRef .tc main_arg2) = x2
  a3 : W (Proc.devRef .tc main_arg3) = x3
  v55 : W (Proc.devRef .tc main_v55) = val_main_v55 (F := F) x0 x1

theorem live72 (W : Valuation τ sig (Elt F)) (h : Live56 x0 x1 x2 x3 W) :
    Live72 x0 x1 x2 x3 (after ((ops.drop 56).take 16) W) := by
  simp only [ops, List.drop_succ_cons, List.drop_zero, List.take_succ_cons, List.take_zero]
  refine ⟨?_, ?_, ?_⟩
  · after_results_simp; exact h.a2
  · after_results_simp; exact h.a3
  · after_results_simp
    rw [h.v3, h.v6, h.v29, h.v42]; rfl

/-- After 77 operations: the logits. -/
theorem live77 (W : Valuation τ sig (Elt F)) (h : Live72 x0 x1 x2 x3 W) :
    after ((ops.drop 72).take 5) W (Proc.devRef .tc main_v60) = val_main_v60 (F := F) x0 x1 x2 x3 := by
  simp only [ops, List.drop_succ_cons, List.drop_zero, List.take_succ_cons, List.take_zero]
  after_results_simp
  rw [h.a2, h.a3, h.v55]; rfl

/-- After 85 operations: the logits shifted by their row maxima. -/
theorem live85 (W : Valuation τ sig (Elt F)) (h : W (Proc.devRef .tc main_v60) = val_main_v60 (F := F) x0 x1 x2 x3) :
    after ((ops.drop 77).take 8) W (Proc.devRef .tc main_call1_v5) = val_main_call1_v5 (F := F) x0 x1 x2 x3 := by
  simp only [ops, List.drop_succ_cons, List.drop_zero, List.take_succ_cons, List.take_zero]
  after_results
  repeat rw [ofBuf_toBuf]
  have hX : ∀ p1 p2 p3, (TRef.of (T := ⟨S170000x40, .f32⟩) main_v60 p1 p2 p3).ofBuf (W (Proc.devRef .tc main_v60))
      = val_main_v60 (F := F) x0 x1 x2 x3 := by
    intro p1 p2 p3
    rw [h]
    exact eq_of_heq (ofBuf_heq _ _)
  rw [hX]
  exact eq_of_heq ((toBuf_heq _ _).trans (heq_of_eq rfl))

/-- After all 92: the result. -/
theorem live92 (W : Valuation τ sig (Elt F))
    (h : W (Proc.devRef .tc main_call1_v5) = val_main_call1_v5 (F := F) x0 x1 x2 x3) :
    after (ops.drop 85) W (Proc.devRef .tc main_v61) = val_main_v61 (F := F) x0 x1 x2 x3 := by
  simp only [ops, List.drop_succ_cons, List.drop_zero, List.take_succ_cons, List.take_zero]
  after_results
  repeat rw [ofBuf_toBuf]
  have hX : ∀ p1 p2 p3, (TRef.of (T := ⟨S170000x40, .f32⟩) main_call1_v5 p1 p2 p3).ofBuf (W (Proc.devRef .tc main_call1_v5))
      = val_main_call1_v5 (F := F) x0 x1 x2 x3 := by
    intro p1 p2 p3
    rw [h]
    exact eq_of_heq (ofBuf_heq _ _)
  rw [hX]
  exact eq_of_heq ((toBuf_heq _ _).trans (heq_of_eq rfl))

/-- THE FOLD AT THE RESULT BUFFER: the 92 operations run from a valuation holding the four arguments leave the last
    stage of those arguments in `main_v61`. -/
theorem fold_result (V : Valuation τ sig (Elt F)) (hV : Args x0 x1 x2 x3 V) :
    after ops V (Proc.devRef .tc main_v61) = val_main_v61 (F := F) x0 x1 x2 x3 := by
  have h7 := live7 x0 x1 x2 x3 V hV
  rw [after_take_drop 7 ops V]
  generalize after (ops.take 7) V = W1 at h7 ⊢
  have h21 := live21 x0 x1 x2 x3 W1 h7
  rw [after_take_drop 14 (ops.drop 7) W1]
  generalize after ((ops.drop 7).take 14) W1 = W2 at h21 ⊢
  have h40 := live40 x0 x1 x2 x3 W2 h21
  rw [List.drop_drop, after_take_drop 19 (ops.drop (7 + 14)) W2]
  generalize after ((ops.drop 21).take 19) W2 = W3 at h40 ⊢
  have h56 := live56 x0 x1 x2 x3 W3 h40
  rw [List.drop_drop, after_take_drop 16 (ops.drop (7 + 14 + 19)) W3]
  generalize after ((ops.drop 40).take 16) W3 = W4 at h56 ⊢
  have h72 := live72 x0 x1 x2 x3 W4 h56
  rw [List.drop_drop, after_take_drop 16 (ops.drop (7 + 14 + 19 + 16)) W4]
  generalize after ((ops.drop 56).take 16) W4 = W5 at h72 ⊢
  have h77 := live77 x0 x1 x2 x3 W5 h72
  rw [List.drop_drop, after_take_drop 5 (ops.drop (7 + 14 + 19 + 16 + 16)) W5]
  generalize after ((ops.drop 72).take 5) W5 = W6 at h77 ⊢
  have h85 := live85 x0 x1 x2 x3 W6 h77
  rw [List.drop_drop, after_take_drop 8 (ops.drop (7 + 14 + 19 + 16 + 16 + 5)) W6]
  generalize after ((ops.drop 77).take 8) W6 = W7 at h85 ⊢
  rw [List.drop_drop]
  exact live92 x0 x1 x2 x3 W7 h85

/-- THE REFERENCE'S RUN: every weakly fair execution terminates with the result buffer at the last stage of the four
    arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61)
        = val_main_v61 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v61).trans (fold_result _ _ _ _ (launchContents m c) ⟨rfl, rfl, rfl, rfl⟩),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.Fold

end
-- ==== Proof.Spec.lean ====
/-
  The mathematics both programs compute, stated once over plain coordinate functions.

  A node's feature row `h : Fin 128 → EReal`, a weight matrix `w : Fin 40 → Fin 128 → EReal` and a bias
  `bias : Fin 40 → EReal` give the row of 40 logits `L c = (∑ k, h k * w c k) + bias c`. The row's log-softmax is
  `L c - M - log (∑ c', exp (L c' - M))` with `M` the fold of `max` over the row starting from the value of the
  word `0xFF800000` (negative infinity, which is never evaluated here: both programs start their maximum from that
  same word). Everything is on the extended reals; no law beyond the shape of the expression is used, so no
  finiteness of the inputs is needed.
-/
import Idealize.ShloMosaic.PureOps.Ideal
import Idealize.ShloMosaic.Lib.ValueIdx

noncomputable section

namespace Cert.LogSoftmaxSpec

open Idealize.ShloMosaic Idealize.ShloMosaic.ValueIdx

/-- One logit: the feature row against class `c`'s weight row, plus that class's bias. -/
def logit (h : Fin 128 → EReal) (w : Fin 40 → Fin 128 → EReal) (bias : Fin 40 → EReal) (c : Fin 40) : EReal :=
  (∑ k : Fin 128, h k * w c k) + bias c

/-- The maximum of a row of 40 values, folded from the value of the word both programs start from. -/
def rowMax (L : Fin 40 → EReal) : EReal :=
  (Finset.univ : Finset (Fin 40)).fold max (Ideal.ofBits .f32 0xFF800000#32) L

/-- Taking the maximum with the starting value once more changes nothing: the fold already dominates it. -/
theorem max_start_rowMax (L : Fin 40 → EReal) :
    max (Ideal.ofBits .f32 0xFF800000#32) (rowMax L) = rowMax L :=
  max_eq_right ((Finset.le_fold_max _).2 (Or.inl le_rfl))

/-- The log-softmax of a row, at class `c`: shift by the row maximum, subtract the log of the summed exponentials. -/
def logSoftmaxRow (L : Fin 40 → EReal) (c : Fin 40) : EReal :=
  (L c - rowMax L) - Ideal.log (∑ c' : Fin 40, Ideal.exp (L c' - rowMax L))

/-- The whole result: entry `(r, c)` is the log-softmax at `c` of the logits of row `r` of `h`. -/
def G (h : (⟨2, ![170000, 128]⟩ : Shape).Idx → EReal) (W : (⟨2, ![40, 128]⟩ : Shape).Idx → EReal)
    (b : (⟨1, ![40]⟩ : Shape).Idx → EReal) : (⟨2, ![170000, 40]⟩ : Shape).Idx → EReal :=
  fun i => logSoftmaxRow (logit (fun k => h (ix2 (i 0) k)) (fun c k => W (ix2 c k)) (fun c => b (ix1 c))) (i 1)

end Cert.LogSoftmaxSpec

end
-- ==== Proof.RefValue.lean ====
/-
  The reference's result, read stage by stage, is the specification.

  After the propagation (kept as ONE unopened term, `h` below) the reference transposes the weights, takes
  `h · Wᵀ` as a sum over the 128 features, adds the bias, and calls log-softmax: the row maximum from the word
  `0xFF800000` (and once more the maximum with that same word, which changes nothing), the shift, the exponentials,
  their row sum from zero, the logarithm, the difference. At every entry `(r, c)` that is the spec's
  `logSoftmaxRow (logit (row r of h) W b) c`.
-/
import proofs.«128257_j78030965834313_1_alg».proof.Proof.RefRead
import proofs.«128257_j78030965834313_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx
open Cert.LogSoftmaxSpec

-- The propagated features stay ONE unopened term: on the extended reals the stage is a sum over 1.37 million updates.
attribute [local irreducible] Cert.ReferenceIdeal.ReadP.val_main_v55
-- A host reduce over one axis of the [170000, 40] logits is a fold over 6.8 million positions: never opened either.
attribute [local irreducible] Host.reduce

/-- Two indices of a rank-2 shape with the same coordinates are equal. -/
local macro "coords2" : term => `(funext fun a => Fin.ext (by match a with | ⟨0, _⟩ => rfl | ⟨1, _⟩ => rfl))
/-- The same at rank 1. -/
local macro "coords1" : term => `(funext fun a => Fin.ext (by match a with | ⟨0, _⟩ => rfl))

variable (x0 : (⟨S170000x128, .f32⟩ : BufTy).Contents (Elt Ideal)) (x1 : (⟨S2x1200000, .i32⟩ : BufTy).Contents (Elt Ideal))
  (x2 : (⟨S40x128, .f32⟩ : BufTy).Contents (Elt Ideal)) (x3 : (⟨S40, .f32⟩ : BufTy).Contents (Elt Ideal))

/-- Row `r`'s logits in the reference: the propagated features' row against the weights, plus the bias. -/
abbrev refLogits (r : Fin 170000) : Fin 40 → EReal :=
  logit (fun k => val_main_v55 (F := Ideal) x0 x1 (ix2 r k)) (fun c k => x2 (ix2 c k)) (fun c => x3 (ix1 c))

/-- The sum `h · Wᵀ + b` at `(r, c)`. -/
theorem logits_apply (r : Fin 170000) (c : Fin 40) :
    val_main_v60 (F := Ideal) x0 x1 x2 x3 (ix2 r c) = refLogits x0 x1 x2 x3 r c := by
  rw [val_main_v60_apply, val_main_v57_apply, val_main_v59_apply, val_main_v58_apply]
  refine congrArg₂ (fun (a b : EReal) => a + b) (Finset.sum_congr rfl fun k _ => congrArg₂ (fun (a b : EReal) => a * b) ?_ ?_) ?_
  · exact congrArg (val_main_v55 (F := Ideal) x0 x1) coords2
  · rw [val_main_v56_apply]
    exact congrArg x2 coords2
  · exact congrArg x3 coords1

/-- A fold of the program's maximum from the program's starting constant is the spec's fold of `max` from the same word:
    on the extended reals the two operations and the two starting values are the same by definition. -/
theorem fold_eq (g : Fin 40 → EReal) :
    (Finset.univ : Finset (Fin 40)).fold (FloatOps.maximumf (F := Ideal) (φ := .f32))
        ((val_main_call1_cst (F := Ideal)) (Shape.Idx.first h_S_)) g
      = rowMax g := rfl

/-- The reduce-max over the 40 classes of row `r` is the spec's fold over that row's logits. (The reduce is only ever
    read through the library's fold lemma, with every argument given: it is a fold over 6.8 million positions.) -/
theorem reduceMax_row (y0 : S170000x40.Idx → EReal) (r : Fin 170000) :
    Host.reduce (FloatOps.maximumf (F := Ideal) (φ := .f32)) y0 (val_main_call1_cst (F := Ideal)) reducesTo_S170000x40_S170000_d1 h_S_ (ix1 r)
      = rowMax (fun c => y0 (ix2 r c)) := by
  have hred : S170000x40.Reduces [1] S170000 := by decide
  refine (Host.reduce_eq_fold_single (FloatOps.maximumf (F := Ideal) (φ := .f32)) y0 (val_main_call1_cst (F := Ideal)) reducesTo_S170000x40_S170000_d1 hred h_S_ (ix1 r)).trans ?_
  refine (congrArg (fun f => (Finset.univ : Finset (Fin 40)).fold (FloatOps.maximumf (F := Ideal) (φ := .f32)) ((val_main_call1_cst (F := Ideal)) (Shape.Idx.first h_S_)) f) (funext fun k => ?_)).trans (fold_eq _)
  exact congrArg y0 (funext fun a => Fin.ext (by match a with | ⟨0, _⟩ => rfl | ⟨1, _⟩ => rfl))

theorem rowMax_apply (r : Fin 170000) :
    val_main_call1_v0 (F := Ideal) x0 x1 x2 x3 (ix1 r) = rowMax (refLogits x0 x1 x2 x3 r) :=
  (reduceMax_row (val_main_v60 (F := Ideal) x0 x1 x2 x3) r).trans
    (congrArg rowMax (funext fun c => logits_apply x0 x1 x2 x3 r c))

/-- The value subtracted from row `r`: the maximum of the starting word and the row's maximum, laid along the row. -/
theorem shiftMax_apply (r : Fin 170000) (c : Fin 40) :
    val_main_call1_v4 (F := Ideal) x0 x1 x2 x3 (ix2 r c) = rowMax (refLogits x0 x1 x2 x3 r) := by
  rw [val_main_call1_v4_apply, val_main_call1_v3_apply, val_main_call1_v2_apply]
  have e : idx_main_call1_v3 (idx_main_call1_v4 (ix2 r c)) = ix1 r := coords1
  rw [e, rowMax_apply]
  exact max_start_rowMax _

/-- The shifted logit at `(r, c)`. -/
theorem shifted_apply (r : Fin 170000) (c : Fin 40) :
    val_main_call1_v5 (F := Ideal) x0 x1 x2 x3 (ix2 r c) = refLogits x0 x1 x2 x3 r c - rowMax (refLogits x0 x1 x2 x3 r) := by
  rw [val_main_call1_v5_apply, logits_apply, shiftMax_apply]
  rfl

/-- The logarithm of row `r`'s summed exponentials, laid along the row. -/
theorem logSum_apply (r : Fin 170000) (c : Fin 40) :
    val_main_call1_v10 (F := Ideal) x0 x1 x2 x3 (ix2 r c)
      = Ideal.log (∑ c' : Fin 40, Ideal.exp (refLogits x0 x1 x2 x3 r c' - rowMax (refLogits x0 x1 x2 x3 r))) := by
  rw [val_main_call1_v10_apply, val_main_call1_v9_apply, val_main_call1_v8_apply, val_main_call1_v7_apply]
  simp only [val_main_call1_cst_1_apply, Ideal.hostUnary_log_def, Ideal.ofBits_def, Ideal.ofBits_zero_f32, zero_add]
  refine congrArg Ideal.log (Finset.sum_congr rfl fun k _ => ?_)
  rw [val_main_call1_v6_apply]
  have e : idx_main_call1_v7 (idx_main_call1_v8 (idx_main_call1_v10 (ix2 r c))) k = ix2 r k := coords2
  rw [e, shifted_apply]
  rfl

/-- THE REFERENCE IS THE SPECIFICATION: its last stage, as a function of the arguments, is `G` of the propagated
    features (the stage `val_main_v55`, never opened), the weights and the bias. -/
theorem ref_eq :
    val_main_v61 (F := Ideal) x0 x1 x2 x3 = G (val_main_v55 (F := Ideal) x0 x1) x2 x3 := by
  funext i
  obtain ⟨r, c, rfl⟩ : ∃ (r : Fin 170000) (c : Fin 40), i = ix2 r c := ⟨i 0, i 1, eq_ix2 i⟩
  rw [val_main_v61_apply, shifted_apply, logSum_apply]
  rfl

end Cert.ReferenceIdeal.RefValue

end
-- ==== Proof.KernelPayload.lean ====
/-
  What the kernel body stores, read at one entry of its [2000, 40] block.

  From a block `x0` of 2000 feature rows, the weights `x1` [40, 128] and the bias row `x2` [1, 40], the body forms
  the logits `x0 · x1ᵀ + x2` (a matrix product into a zero accumulator; the two narrowings to bf16 are the identity
  on the extended reals, and the transpose only re-indexes the weights), takes each row's maximum from the word
  `0xFF800000`, shifts, exponentiates, sums each row from zero, takes the logarithm and subtracts. Entry `(p, q)` of
  the stored block is therefore the row log-softmax, at `q`, of the logits of the block's row `p`.
-/
import proofs.«128257_j78030965834313_1_alg».proof.Proof.Gen.KernelIdeal.Skeleton
import proofs.«128257_j78030965834313_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.LogSoftmaxSpec

/-! ## The matrix product's operand indices -/

/-- The contraction record of the body's [2000, 128] × [128, 40] product. -/
abbrev D := dot_S2000x128_S128x40_S2000x40_1_0_0_1_n_n

theorem lhs_axis0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem lhs_axis1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
theorem rhs_axis0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
theorem rhs_axis1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- The product into the zero accumulator, at `(p, q)`: row `p` of the left operand against column `q` of the right. -/
theorem matmul_zero_apply (l : FVec Ideal S2000x128 .bf16) (r : FVec Ideal S128x40 .bf16) (p : Fin 2000) (q : Fin 40) :
    matmul dot_S2000x128_S128x40_S2000x40_1_0_0_1_n_n none l r (constant (F := Ideal) S2000x40 .f32 0x00000000#32) (ix2 p q)
      = ∑ k : Fin 128, l (ix2 p k) * r (ix2 k q) := by
  simp only [matmul]
  rw [Ideal.matmul_constant_zero_apply, ← Equiv.sum_comp (contrEquiv1 dot_S2000x128_S128x40_S2000x40_1_0_0_1_n_n 128 rfl rfl).symm]
  refine Finset.sum_congr rfl fun k _ => ?_
  have hk := contrEquiv1_symm_val dot_S2000x128_S128x40_S2000x40_1_0_0_1_n_n 128 rfl rfl k
  have el : dot_S2000x128_S128x40_S2000x40_1_0_0_1_n_n.lhsIdx (ix2 p q) ((contrEquiv1 dot_S2000x128_S128x40_S2000x40_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x40_S2000x40_1_0_0_1_n_n.rhsIdx (ix2 p q) ((contrEquiv1 dot_S2000x128_S128x40_S2000x40_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The logits of the block -/

/-- The body's logits: the product of the block with the transposed weights, plus the bias row on every row. -/
def blockLogits (x0 : Vec Ideal S2000x128 .f32) (x1 : Vec Ideal S40x128 .f32) (x2 : Vec Ideal S1x40 .f32) : FVec Ideal S2000x40 .f32 :=
  addf (matmul dot_S2000x128_S128x40_S2000x40_1_0_0_1_n_n none
      (truncf .bf16 (shapeCast S2000x128 x0 shapeCasts_S2000x128_S2000x128) bitsLt_bf16_f32)
      (transpose S128x40 [1, 0] (truncf .bf16 x1 bitsLt_bf16_f32) transposes_S40x128_p1_0_S128x40)
      (constant (F := Ideal) S2000x40 .f32 0x00000000#32))
    (broadcastTo S2000x40 (shapeCast S1x40 x2 shapeCasts_S1x40_S1x40) broadcasts_S1x40_S2000x40)

/-- Entry `(p, c)` of the logits is the spec's logit of the block's row `p` for class `c`. -/
theorem blockLogits_apply (x0 : Vec Ideal S2000x128 .f32) (x1 : Vec Ideal S40x128 .f32) (x2 : Vec Ideal S1x40 .f32)
    (p : Fin 2000) (c : Fin 40) :
    blockLogits x0 x1 x2 (ix2 p c)
      = logit (fun k => x0 (ix2 p k)) (fun c k => x1 (ix2 c k)) (fun c => x2 (ix2 (0 : Fin 1) c)) c := by
  unfold blockLogits logit
  refine congrArg₂ (· + ·) ?_ ?_
  · refine (matmul_zero_apply _ _ p c).trans (Finset.sum_congr rfl fun k _ => ?_)
    refine congrArg₂ (· * ·) ?_ ?_
    · exact congrFun (shapeCast_self (x0 : FVec Ideal S2000x128 .f32) shapeCasts_S2000x128_S2000x128) (ix2 p k)
    · exact transpose_ix2_apply (truncf .bf16 x1 bitsLt_bf16_f32 : FVec Ideal S40x128 .bf16) transposes_S40x128_p1_0_S128x40 k c
  · exact (broadcastTo_1b_ab_apply (shapeCast S1x40 (x2 : FVec Ideal S1x40 .f32) shapeCasts_S1x40_S1x40) broadcasts_S1x40_S2000x40 p c).trans
      (congrFun (shapeCast_self (x2 : FVec Ideal S1x40 .f32) shapeCasts_S1x40_S1x40) (ix2 (0 : Fin 1) c))

/-! ## A column [2000] laid along the rows of a [2000, 40] block -/

/-- A `[2000]` array cast to `[2000, 1]` reads, at `(p, 0)`, the operand at `p`. -/
theorem column_apply {α : Type} (v : S2000.Idx → α) (p : Fin 2000) (u : Fin 1) :
    shapeCast S2000x1 v shapeCasts_S2000_S2000x1 (ix2 p u) = v (ix1 p) :=
  shapeCast_apply v shapeCasts_S2000_S2000x1 _ _ (by
    have hu : u.val = 0 := by omega
    rw [Shape.rowMajor_val_two, Shape.rowMajor_val_one]
    show p.val = p.val * 1 + u.val
    rw [hu, Nat.mul_one, Nat.add_zero])

/-- A `[2000, 1]` array broadcast to `[2000, 40]` reads, at `(p, c)`, the operand's row `p`. -/
theorem spread_apply {α : Type} (w : S2000x1.Idx → α) (p : Fin 2000) (c : Fin 40) :
    broadcastTo S2000x40 w broadcasts_S2000x1_S2000x40 (ix2 p c) = w (ix2 p (0 : Fin 1)) := by
  refine broadcastTo_apply w broadcasts_S2000x1_S2000x40 (ix2 p c) (ix2 p (0 : Fin 1)) fun ax => ?_
  match ax with
  | ⟨0, _⟩ =>
    show p.val = if (2000 : ℕ) = 1 then 0 else p.val
    rw [if_neg (by decide)]
  | ⟨1, _⟩ => rfl

/-! ## The row maximum and the row sum -/

/-- The body's row maximum at row `p` is the spec's fold of `max` over that row. -/
theorem rowMaxVec_apply (Lg : FVec Ideal S2000x40 .f32) (p : Fin 2000) :
    multiReduction .maximumf [1] S2000 Lg 0xFF800000#32 reduces_S2000x40_S2000 (.inl rfl) rfl (ix1 p)
      = rowMax (fun c => Lg (ix2 p c)) := by
  refine (Ideal.multiReduction_maximumf_single Lg 0xFF800000#32 reduces_S2000x40_S2000 (.inl rfl) rfl (ix1 p)).trans ?_
  unfold rowMax
  refine congrArg (fun f => (Finset.univ : Finset (Fin 40)).fold max (Ideal.ofBits .f32 0xFF800000#32) f) (funext fun k => ?_)
  exact congrArg Lg (funext fun a => Fin.ext (by match a with | ⟨0, _⟩ => rfl | ⟨1, _⟩ => rfl))

/-- The body's row sum from zero at row `p` is the sum over that row. -/
theorem rowSumVec_apply (E : FVec Ideal S2000x40 .f32) (p : Fin 2000) :
    multiReduction .add [1] S2000 E 0x00000000#32 reduces_S2000x40_S2000 (.inl rfl) rfl (ix1 p)
      = ∑ c : Fin 40, E (ix2 p c) := by
  refine (Ideal.multiReduction_add_single E 0x00000000#32 reduces_S2000x40_S2000 (.inl rfl) rfl (ix1 p)).trans ?_
  exact Finset.sum_congr rfl fun k _ => congrArg E (funext fun a => Fin.ext (by match a with | ⟨0, _⟩ => rfl | ⟨1, _⟩ => rfl))

/-! ## The log-softmax of the block's logits -/

/-- Each row's maximum, laid along its row. -/
def rowMaxCol (Lg : FVec Ideal S2000x40 .f32) : FVec Ideal S2000x40 .f32 :=
  broadcastTo S2000x40 (shapeCast S2000x1 (multiReduction .maximumf [1] S2000 Lg 0xFF800000#32 reduces_S2000x40_S2000 (.inl rfl) rfl)
    shapeCasts_S2000_S2000x1) broadcasts_S2000x1_S2000x40

/-- The logarithm of each row's summed exponentials, laid along its row. -/
def logSumCol (Sh : FVec Ideal S2000x40 .f32) : FVec Ideal S2000x40 .f32 :=
  broadcastTo S2000x40 (log (shapeCast S2000x1 (multiReduction .add [1] S2000 (exp Sh) 0x00000000#32 reduces_S2000x40_S2000 (.inl rfl) rfl)
    shapeCasts_S2000_S2000x1)) broadcasts_S2000x1_S2000x40

theorem rowMaxCol_apply (Lg : FVec Ideal S2000x40 .f32) (p : Fin 2000) (c : Fin 40) :
    rowMaxCol Lg (ix2 p c) = rowMax (fun c => Lg (ix2 p c)) := by
  unfold rowMaxCol
  exact ((spread_apply _ p c).trans (column_apply _ p 0)).trans (rowMaxVec_apply Lg p)

theorem logSumCol_apply (Sh : FVec Ideal S2000x40 .f32) (p : Fin 2000) (c : Fin 40) :
    logSumCol Sh (ix2 p c) = Ideal.log (∑ c' : Fin 40, Ideal.exp (Sh (ix2 p c'))) := by
  unfold logSumCol
  refine (spread_apply _ p c).trans ?_
  show Ideal.log (shapeCast S2000x1 (multiReduction .add [1] S2000 (exp Sh) 0x00000000#32 reduces_S2000x40_S2000 (.inl rfl) rfl) shapeCasts_S2000_S2000x1 (ix2 p (0 : Fin 1))) = _
  refine congrArg Ideal.log ?_
  exact ((column_apply _ p 0).trans (rowSumVec_apply (exp Sh) p))

/-- The body's last value as a function of its logits. -/
def logSoftmaxVec (Lg : FVec Ideal S2000x40 .f32) : FVec Ideal S2000x40 .f32 :=
  subf (subf Lg (rowMaxCol Lg)) (logSumCol (subf Lg (rowMaxCol Lg)))

theorem logSoftmaxVec_apply (Lg : FVec Ideal S2000x40 .f32) (p : Fin 2000) (q : Fin 40) :
    logSoftmaxVec Lg (ix2 p q) = logSoftmaxRow (fun c => Lg (ix2 p c)) q := by
  unfold logSoftmaxVec logSoftmaxRow
  show (Lg (ix2 p q) - rowMaxCol Lg (ix2 p q)) - logSumCol (subf Lg (rowMaxCol Lg)) (ix2 p q) = _
  rw [rowMaxCol_apply, logSumCol_apply]
  refine congrArg (fun z => (Lg (ix2 p q) - rowMax (fun c => Lg (ix2 p c))) - Ideal.log z) (Finset.sum_congr rfl fun c _ => ?_)
  show Ideal.exp (Lg (ix2 p c) - rowMaxCol Lg (ix2 p c)) = _
  rw [rowMaxCol_apply]

/-! ## The payload -/

/-- The stored value is the log-softmax of the block's logits: the body's text, regrouped. -/
theorem payload_eq (x0 : Vec Ideal S2000x128 .f32) (x1 : Vec Ideal S40x128 .f32) (x2 : Vec Ideal S1x40 .f32) :
    k0_pay1 (F := Ideal) x0 x1 x2 = logSoftmaxVec (blockLogits x0 x1 x2) := rfl

/-- Entry `(p, q)` of the stored block: the row log-softmax at `q` of the logits of the block's row `p`. -/
theorem payload_apply (x0 : Vec Ideal S2000x128 .f32) (x1 : Vec Ideal S40x128 .f32) (x2 : Vec Ideal S1x40 .f32)
    (p : Fin 2000) (q : Fin 40) :
    k0_pay1 (F := Ideal) x0 x1 x2 (ix2 p q)
      = logSoftmaxRow (logit (fun k => x0 (ix2 p k)) (fun c k => x1 (ix2 c k)) (fun c => x2 (ix2 (0 : Fin 1) c))) q := by
  rw [payload_eq, logSoftmaxVec_apply]
  exact congrArg (fun L => logSoftmaxRow L q) (funext fun c => blockLogits_apply x0 x1 x2 p c)

end Cert.KernelIdeal.Payload

end
-- ==== Proof.KernelEntry.lean ====
/-
  What the kernel's region finds in the two arrays the host writes before it.

  The feature window stages `main_v55`, the result of the two propagation hops, and the bias window stages
  `main_v56`, the bias reshaped to one row. The 73 host operations before the region are, one for one, the
  reference's first 72 followed by that reshape, so `main_v55` holds the reference's stage `val_main_v55` of the same
  two arguments. The line is read the way the reference's is: cut where a value is used more than once, the fold so
  far replaced by an unknown valuation of which only the values still needed are recorded. This holds at any float
  family; nothing is evaluated.
-/
import proofs.«128257_j78030965834313_1_alg».proof.Proof.Gen.KernelIdeal.Frame
import proofs.«128257_j78030965834313_1_alg».proof.Proof.RefRead
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The host operations before the region, as one line. -/
abbrev hostAll : List (HloOp τ sig (Elt F)) := List.flatten [hostOps0, hostOps0_1, hostOps0_2]

/-- A line of operations run from `V` is its tail run from what its first `k` operations leave. -/
theorem after_take_drop : ∀ (k : ℕ) (l : List (HloOp τ sig (Elt F))) (V : Valuation τ sig (Elt F)),
    after l V = after (l.drop k) (after (l.take k) V)
  | 0, _, _ => rfl
  | _ + 1, [], _ => rfl
  | k + 1, op :: l, V => by
    show after l (op.result V) = after (l.drop k) (after (l.take k) (op.result V))
    exact after_take_drop k l (op.result V)

variable (x0 : (⟨S170000x128, .f32⟩ : BufTy).Contents (Elt F)) (x1 : (⟨S2x1200000, .i32⟩ : BufTy).Contents (Elt F)) (x3 : (⟨S40, .f32⟩ : BufTy).Contents (Elt F))

/-- What a valuation holds at the three arguments the host operations read. -/
structure Args (W : Valuation τ sig (Elt F)) : Prop where
  a0 : W (Proc.devRef .tc main_arg0) = x0
  a1 : W (Proc.devRef .tc main_arg1) = x1
  a3 : W (Proc.devRef .tc main_arg3) = x3

/-- After the first 7 operations: the source and target index vectors. -/
structure Live7 (W : Valuation τ sig (Elt F)) : Prop extends Args x0 x1 x3 W where
  v3 : W (Proc.devRef .tc main_v3) = Cert.ReferenceIdeal.ReadP.val_main_v3 (F := F) x1
  v6 : W (Proc.devRef .tc main_v6) = Cert.ReferenceIdeal.ReadP.val_main_v6 (F := F) x1

theorem live7 (W : Valuation τ sig (Elt F)) (h : Args x0 x1 x3 W) : Live7 x0 x1 x3 (after (hostAll.take 7) W) := by
  simp only [hostAll, hostOps0, hostOps0_1, hostOps0_2, List.flatten_cons, List.flatten_nil, List.append_nil, List.cons_append,
    List.nil_append, List.drop_succ_cons, List.drop_zero, List.take_succ_cons, List.take_zero]
  refine ⟨⟨?_, ?_, ?_⟩, ?_, ?_⟩
  · after_results; exact h.a0
  · after_results; exact h.a1
  · after_results; exact h.a3
  · after_results; rw [h.a1]; rfl
  · after_results; rw [h.a1]; rfl

/-- After 21 operations: also the inverse square-root degrees. -/
structure Live21 (W : Valuation τ sig (Elt F)) : Prop extends Live7 x0 x1 x3 W where
  v14 : W (Proc.devRef .tc main_v14) = Cert.ReferenceIdeal.ReadP.val_main_v14 (F := F) x1

theorem live21 (W : Valuation τ sig (Elt F)) (h : Live7 x0 x1 x3 W) :
    Live21 x0 x1 x3 (after ((hostAll.drop 7).take 14) W) := by
  simp only [hostAll, hostOps0, hostOps0_1, hostOps0_2, List.flatten_cons, List.flatten_nil, List.append_nil, List.cons_append,
    List.nil_append, List.drop_succ_cons, List.drop_zero, List.take_succ_cons, List.take_zero]
  refine ⟨⟨⟨?_, ?_, ?_⟩, ?_, ?_⟩, ?_⟩
  · after_results_simp; exact h.a0
  · after_results_simp; exact h.a1
  · after_results_simp; exact h.a3
  · after_results_simp; exact h.v3
  · after_results_simp; exact h.v6
  · after_results_simp
    try simp only [TRef.ofBuf, TRef.toBuf, cast_eq]
    rw [h.v6]; rfl

/-- After 40 operations: the index vectors and the edge weights. -/
structure Live40 (W : Valuation τ sig (Elt F)) : Prop extends Live7 x0 x1 x3 W where
  v29 : W (Proc.devRef .tc main_v29) = Cert.ReferenceIdeal.ReadP.val_main_v29 (F := F) x1

theorem live40 (W : Valuation τ sig (Elt F)) (h : Live21 x0 x1 x3 W) :
    Live40 x0 x1 x3 (after ((hostAll.drop 21).take 19) W) := by
  simp only [hostAll, hostOps0, hostOps0_1, hostOps0_2, List.flatten_cons, List.flatten_nil, List.append_nil, List.cons_append,
    List.nil_append, List.drop_succ_cons, List.drop_zero, List.take_succ_cons, List.take_zero]
  refine ⟨⟨⟨?_, ?_, ?_⟩, ?_, ?_⟩, ?_⟩
  · after_results_simp; exact h.a0
  · after_results_simp; exact h.a1
  · after_results_simp; exact h.a3
  · after_results_simp; exact h.v3
  · after_results_simp; exact h.v6
  · after_results_simp
    rw [h.v3, h.v6, h.v14]; rfl

/-- After 56 operations: also the features after the first hop. -/
structure Live56 (W : Valuation τ sig (Elt F)) : Prop extends Live40 x0 x1 x3 W where
  v42 : W (Proc.devRef .tc main_v42) = Cert.ReferenceIdeal.ReadP.val_main_v42 (F := F) x0 x1

theorem live56 (W : Valuation τ sig (Elt F)) (h : Live40 x0 x1 x3 W) :
    Live56 x0 x1 x3 (after ((hostAll.drop 40).take 16) W) := by
  simp only [hostAll, hostOps0, hostOps0_1, hostOps0_2, List.flatten_cons, List.flatten_nil, List.append_nil, List.cons_append,
    List.nil_append, List.drop_succ_cons, List.drop_zero, List.take_succ_cons, List.take_zero]
  refine ⟨⟨⟨⟨?_, ?_, ?_⟩, ?_, ?_⟩, ?_⟩, ?_⟩
  · after_results_simp; exact h.a0
  · after_results_simp; exact h.a1
  · after_results_simp; exact h.a3
  · after_results_simp; exact h.v3
  · after_results_simp; exact h.v6
  · after_results_simp; exact h.v29
  · after_results_simp
    rw [h.v3, h.v6, h.v29, h.a0]; rfl

/-- After 72 operations: the features after the second hop, and the bias still to be reshaped. -/
structure Live72 (W : Valuation τ sig (Elt F)) : Prop where
  a3 : W (Proc.devRef .tc main_arg3) = x3
  v55 : W (Proc.devRef .tc main_v55) = Cert.ReferenceIdeal.ReadP.val_main_v55 (F := F) x0 x1

theorem live72 (W : Valuation τ sig (Elt F)) (h : Live56 x0 x1 x3 W) :
    Live72 x0 x1 x3 (after ((hostAll.drop 56).take 16) W) := by
  simp only [hostAll, hostOps0, hostOps0_1, hostOps0_2, List.flatten_cons, List.flatten_nil, List.append_nil, List.cons_append,
    List.nil_append, List.drop_succ_cons, List.drop_zero, List.take_succ_cons, List.take_zero]
  refine ⟨?_, ?_⟩
  · after_results_simp; exact h.a3
  · after_results_simp
    rw [h.v3, h.v6, h.v29, h.v42]; rfl

/-- After the last operation, the bias reshape: both arrays the region stages. -/
theorem live73 (W : Valuation τ sig (Elt F)) (h : Live72 x0 x1 x3 W) :
    after (hostAll.drop 72) W (Proc.devRef .tc main_v55) = Cert.ReferenceIdeal.ReadP.val_main_v55 (F := F) x0 x1
    ∧ after (hostAll.drop 72) W (Proc.devRef .tc main_v56) = shapeCast S1x40 x3 shapeCasts_S40_S1x40 := by
  simp only [hostAll, hostOps0, hostOps0_1, hostOps0_2, List.flatten_cons, List.flatten_nil, List.append_nil, List.cons_append,
    List.nil_append, List.drop_succ_cons, List.drop_zero, List.take_succ_cons, List.take_zero]
  refine ⟨?_, ?_⟩
  · after_results_simp; exact h.v55
  · after_results_simp
    rw [h.a3]
    rfl

/-- THE HOST LINE read at the two staged arrays, from any valuation holding the arguments. -/
theorem fold_entry (V : Valuation τ sig (Elt F)) (hV : Args x0 x1 x3 V) :
    after hostAll V (Proc.devRef .tc main_v55) = Cert.ReferenceIdeal.ReadP.val_main_v55 (F := F) x0 x1
    ∧ after hostAll V (Proc.devRef .tc main_v56) = shapeCast S1x40 x3 shapeCasts_S40_S1x40 := by
  have h7 := live7 x0 x1 x3 V hV
  rw [after_take_drop 7 hostAll V]
  generalize after (hostAll.take 7) V = W1 at h7 ⊢
  have h21 := live21 x0 x1 x3 W1 h7
  rw [after_take_drop 14 (hostAll.drop 7) W1]
  generalize after ((hostAll.drop 7).take 14) W1 = W2 at h21 ⊢
  have h40 := live40 x0 x1 x3 W2 h21
  rw [List.drop_drop, after_take_drop 19 (hostAll.drop (7 + 14)) W2]
  generalize after ((hostAll.drop 21).take 19) W2 = W3 at h40 ⊢
  have h56 := live56 x0 x1 x3 W3 h40
  rw [List.drop_drop, after_take_drop 16 (hostAll.drop (7 + 14 + 19)) W3]
  generalize after ((hostAll.drop 40).take 16) W3 = W4 at h56 ⊢
  have h72 := live72 x0 x1 x3 W4 h56
  rw [List.drop_drop, after_take_drop 16 (hostAll.drop (7 + 14 + 19 + 16)) W4]
  generalize after ((hostAll.drop 56).take 16) W4 = W5 at h72 ⊢
  rw [List.drop_drop]
  exact live73 x0 x1 x3 W5 h72

variable (m : (ℓ : Loc nD τ sig) → Buf (Elt F) ℓ)

/-- The propagated features the region finds are the reference's propagated features of the same arguments. -/
theorem propagated (c : Dev nD) :
    V m c main_v55
      = Cert.ReferenceIdeal.ReadP.val_main_v55 (F := F) (m ((c : Thread nD τ).loc main_arg0)) (m ((c : Thread nD τ).loc main_arg1)) :=
  (fold_entry _ _ (m ((c : Thread nD τ).loc main_arg3)) (fun b => m (c, b)) ⟨rfl, rfl, rfl⟩).1

/-- The bias row the region finds: the bias argument cast to `[1, 40]`. -/
theorem bias_row (c : Dev nD) :
    V m c main_v56 = shapeCast S1x40 (m ((c : Thread nD τ).loc main_arg3)) shapeCasts_S40_S1x40 :=
  (fold_entry (m ((c : Thread nD τ).loc main_arg0)) (m ((c : Thread nD τ).loc main_arg1)) _ (fun b => m (c, b)) ⟨rfl, rfl, rfl⟩).2

end Cert.KernelIdeal.Entry

end
-- ==== Proof.KernelValue.lean ====
/-
  The kernel's result array, assembled from its 85 blocks.

  Grid point `t` stages rows `2000 t … 2000 t + 1999` of the propagated features, the whole weight matrix and the
  whole bias row, and writes back rows `2000 t … 2000 t + 1999` of the result. Entry `(p, q)` of what it writes is
  the row log-softmax at `q` of the logits of feature row `2000 t + p`, which is entry `(2000 t + p, q)` of one
  whole-array function. The 85 blocks tile the 170000 rows (row `r` lies in block `r / 2000`), so after the run
  the result array is that function: the specification `G` of the propagated features, the weights and the bias.

  Where a block sits in its array is index arithmetic and is proved with no array in sight; what a block IS (a read
  of the array the region finds) is proved at an arbitrary float family, where nothing can be evaluated; the value of
  a point is proved over three arbitrary arrays. On the extended reals these are then only put together.
-/
import proofs.«128257_j78030965834313_1_alg».proof.Proof.Gen.KernelIdeal.Value
import proofs.«128257_j78030965834313_1_alg».proof.Proof.KernelPayload
import proofs.«128257_j78030965834313_1_alg».proof.Proof.KernelEntry

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.LogSoftmaxSpec
open Idealize.ShloMosaic.Pipeline (Dat)

/-! ## Where the blocks sit -/

theorem zero_offsets : (![0, 0] : Fin 2 → Nat) = fun _ => 0 := funext fun a => by fin_cases a <;> rfl

/-- The block index maps over the 85 grid points: the feature and result windows move with the point along the
    rows; the weight and bias windows stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `2000 t + p` of the array. -/
def rowOf (t : Fin cfg0.N) (p : Fin 2000) : Fin 170000 :=
  ⟨t.val * 2000 + p.val, by
    have ht : t.val < 85 := Nat.lt_of_lt_of_eq t.isLt N_0
    have hp := p.isLt
    omega⟩

/-- Entry `(p, k)` of point `t`'s feature block is entry `(2000 t + p, k)` of the feature array. -/
theorem emb_feat (t : Fin cfg0.N) (p : Fin 2000) (k : Fin 128) :
    ((cfg0.win 0).blk t).view.emb (ix2 p k) = ix2 (rowOf t p) k := by
  obtain ⟨e0, e1, -⟩ := index_facts t
  refine funext fun a => Fin.ext ?_
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The weight block is the whole weight array. -/
theorem emb_weight (t : Fin cfg0.N) (c' : Fin 40) (k : Fin 128) :
    ((cfg0.win 1).blk t).view.emb (ix2 c' k) = ix2 c' k := by
  obtain ⟨-, -, e2, e3, -⟩ := index_facts t
  refine funext fun a => Fin.ext ?_
  match a with
  | ⟨0, _⟩ => show win0_1.index t (0 : Fin 2) * 40 + 1 * c'.val = c'.val; rw [e2]; omega
  | ⟨1, _⟩ => show win0_1.index t (1 : Fin 2) * 128 + 1 * k.val = k.val; rw [e3]; omega

/-- The bias block is the whole bias row. -/
theorem emb_bias (t : Fin cfg0.N) (u : Fin 1) (c' : Fin 40) :
    ((cfg0.win 2).blk t).view.emb (ix2 u c') = ix2 u c' := by
  obtain ⟨-, -, -, -, e4, e5, -⟩ := index_facts t
  refine funext fun a => Fin.ext ?_
  match a with
  | ⟨0, _⟩ => show win0_2.index t (0 : Fin 2) * 1 + 1 * u.val = u.val; rw [e4]; omega
  | ⟨1, _⟩ => show win0_2.index t (1 : Fin 2) * 40 + 1 * c'.val = c'.val; rw [e5]; omega

/-- Entry `(p, q)` of point `t`'s result block is entry `(2000 t + p, q)` of the result array. -/
theorem emb_out (t : Fin cfg0.N) (p : Fin 2000) (q : Fin 40) :
    ((cfg0.win 3).blk t).view.emb (ix2 p q) = ix2 (rowOf t p) q := by
  obtain ⟨-, -, -, -, -, -, e6, e7⟩ := index_facts t
  refine funext fun a => Fin.ext ?_
  match a with
  | ⟨0, _⟩ => show win0_3.index t (0 : Fin 2) * 2000 + 1 * p.val = t.val * 2000 + p.val; rw [e6]; omega
  | ⟨1, _⟩ => show win0_3.index t (1 : Fin 2) * 40 + 1 * q.val = q.val; rw [e7]; omega

/-- An index of the result array is in point `t`'s block iff each coordinate is in the block's range on its axis. -/
theorem mem_block (t : Fin cfg0.N) (i : S170000x40.Idx) :
    i ∈ ((cfg0.win 3).blk t).view.set ↔ ∀ a : Fin 2, win0_3.index t a * S2000x40.size a ≤ (i a).val ∧ (i a).val < win0_3.index t a * S2000x40.size a + S2000x40.size a := by
  show i ∈ ((View.whole main_v57).slice (win0_3.rect t)).set ↔ _
  rw [View.set_slice_whole, Rect.mem_set_unit]
  exact Iff.rfl

/-- Every entry of the result array lies in some point's block: row `r` in block `r / 2000`. -/
theorem cover (i : S170000x40.Idx) :
    ∃ t : Fin cfg0.N, (cfg0.win 3).flush t = true ∧ i ∈ ((cfg0.win 3).blk t).view.set := by
  have hi0 : (i 0).val < 170000 := (i 0).isLt
  have hi1 : (i 1).val < 40 := (i 1).isLt
  have h85 : cfg0.N = 85 := N_0
  obtain ⟨t, ht⟩ : ∃ t : Fin cfg0.N, t.val = (i 0).val / 2000 := ⟨⟨(i 0).val / 2000, by omega⟩, rfl⟩
  obtain ⟨-, -, -, -, -, -, e6, e7⟩ := index_facts t
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    rw [e6, ht]; omega
  | ⟨1, _⟩ =>
    show win0_3.index t (1 : Fin 2) * 40 ≤ (i 1).val ∧ (i 1).val < win0_3.index t (1 : Fin 2) * 40 + 40
    rw [e7]; omega

/-! ## What the blocks are, at any float family -/

section AnyFamily

variable {F : FTy → Type} [FloatOps F]
variable (m : (ℓ : Loc nD τ sig) → Buf (Elt F) ℓ)

/-- Point `t`'s feature block is the feature array read through the block's place in it. -/
theorem featBlk_eq (c : Dev nD) (t : Fin cfg0.N) :
    (iblk m c 0 t : Vec F S2000x128 .f32) = fun j => V m c main_v55 (((cfg0.win 0).blk t).view.emb j) := rfl

theorem weightBlk_eq (c : Dev nD) (t : Fin cfg0.N) :
    (iblk m c 1 t : Vec F S40x128 .f32) = fun j => V m c main_arg2 (((cfg0.win 1).blk t).view.emb j) := rfl

theorem biasBlk_eq (c : Dev nD) (t : Fin cfg0.N) :
    (iblk m c 2 t : Vec F S1x40 .f32) = fun j => V m c main_v56 (((cfg0.win 2).blk t).view.emb j) := rfl

/-- The body leaves in the result window's buffer the one value it stores. -/
theorem out_eq (x0 : Vec F S2000x128 .f32) (x1 : Vec F S40x128 .f32) (x2 : Vec F S1x40 .f32) :
    out0_3 x0 x1 x2 = k0_pay1 x0 x1 x2 := by
  unfold out0_3
  rw [View.canon_unit_zero zero_offsets]
  simp only [View.ld_unit_zero (S := S2000x128) zero_offsets, View.ld_unit_zero (S := S40x128) zero_offsets,
    View.ld_unit_zero (S := S1x40) zero_offsets]

/-- The result window's blocks are never clipped: what is written back is the whole buffer. -/
theorem cut_eq (t : Fin cfg0.N) (X : Vec F S2000x40 .f32) : (cfg0.win 3).cut (grid0.coords t) X = X := rfl

end AnyFamily

/-! ## One point's value, over three arbitrary arrays -/

section Point

variable (A0 : S170000x128.Idx → EReal) (A1 : S40x128.Idx → EReal) (A2 : S1x40.Idx → EReal)

/-- The result as one function of a feature array, a weight array and a bias row: entry `(r, q)` is the row
    log-softmax at `q` of the logits of feature row `r`. -/
def GA : S170000x40.Idx → EReal :=
  fun i => logSoftmaxRow (logit (fun k => A0 (ix2 (i 0) k)) (fun c' k => A1 (ix2 c' k))
    (fun c' => A2 (ix2 (0 : Fin 1) c'))) (i 1)

/-- What the body computes from point `t`'s blocks of the three arrays, at `(p, q)`, is that function at the
    entry's place in the result array. -/
theorem point_eq (t : Fin cfg0.N) (p : Fin 2000) (q : Fin 40) :
    k0_pay1 (F := Ideal) (fun j => A0 (((cfg0.win 0).blk t).view.emb j)) (fun j => A1 (((cfg0.win 1).blk t).view.emb j))
        (fun j => A2 (((cfg0.win 2).blk t).view.emb j)) (ix2 p q)
      = GA A0 A1 A2 (((cfg0.win 3).blk t).view.emb (ix2 p q)) := by
  rw [emb_out t p q]
  refine (Payload.payload_apply (fun j => A0 (((cfg0.win 0).blk t).view.emb j)) (fun j => A1 (((cfg0.win 1).blk t).view.emb j))
    (fun j => A2 (((cfg0.win 2).blk t).view.emb j)) p q).trans ?_
  refine congrArg (fun L => logSoftmaxRow L q) ?_
  exact congr (congr (congrArg logit (funext fun k => congrArg A0 (emb_feat t p k)))
    (funext fun c' => funext fun k => congrArg A1 (emb_weight t c' k))) (funext fun c' => congrArg A2 (emb_bias t 0 c'))

/-- Reading any result-shaped array through point `t`'s block: the array at the entry's place. -/
theorem read_out (t : Fin cfg0.N) (A : S170000x40.Idx → EReal) (j : S2000x40.Idx) :
    ((cfg0.win 3).blk t).view.read (Elt Ideal) A j = A (((cfg0.win 3).blk t).view.emb j) := rfl

/-- With the bias row a `[40]` vector cast to `[1, 40]`, that function is the specification of the vector. -/
theorem GA_shapeCast (b : S40.Idx → EReal) (h : S40.ShapeCasts S1x40) :
    GA A0 A1 (shapeCast S1x40 b h) = G A0 A1 b := by
  funext i
  exact congrArg (fun bias => logSoftmaxRow (logit (fun k => A0 (ix2 (i 0) k)) (fun c' k => A1 (ix2 c' k)) bias) (i 1))
    (funext fun c' => shapeCast_a_1a_apply b h (0 : Fin 1) c')

end Point

/-! ## On the extended reals -/

-- Used through the lemmas above only: on the extended reals the fold of the host line before the region (what the
-- arrays `V` abbreviate) and the reference's propagation stage are sums over 1.37 million updates, and the body's row
-- maximum is a fold over the block's 80000 entries.
attribute [local irreducible] Idealize.ShloMosaic.StableHlo.after Cert.ReferenceIdeal.ReadP.val_main_v55 Cert.KernelIdeal.Gen.k0_pay1 GA

variable (m : (ℓ : Loc nD τ sig) → Buf (Elt Ideal) ℓ) (ρ : Dev nD → PrngReg)

/-- WHAT POINT `t` WRITES BACK is block `t` of that function of the arrays the region finds. -/
theorem flushed_eq (c : Dev nD) (t : Fin cfg0.N) :
    (dats m 0 c).flushed 3 t
      = ((cfg0.win 3).blk t).view.read (Elt Ideal) (GA (V m c main_v55) (V m c main_arg2) (V m c main_v56)) := by
  rw [flushed3, out_eq]
  refine (cut_eq (F := Ideal) t _).trans ?_
  rw [featBlk_eq, weightBlk_eq, biasBlk_eq]
  funext j
  obtain ⟨p, q, rfl⟩ : ∃ (p : Fin 2000) (q : Fin 40), j = ix2 p q := ⟨j 0, j 1, eq_ix2 j⟩
  exact (point_eq (V m c main_v55) (V m c main_arg2) (V m c main_v56) t p q).trans
    (read_out t (GA (V m c main_v55) (V m c main_arg2) (V m c main_v56)) (ix2 p q)).symm

/-- THE ARRAY after the run is that function of the arrays the region finds. -/
theorem final (c : Dev nD) :
    (dats m 0 c).arrAt 3 cfg0.N = GA (V m c main_v55) (V m c main_arg2) (V m c main_v56) :=
  (dats m 0 c).arrAt_eq_of_cover 3 (GA (V m c main_v55) (V m c main_arg2) (V m c main_v56)) (fun t _ => flushed_eq m c t) cover

/-- In terms of the arguments: the specification of the reference's propagated features, the weights and the bias. -/
theorem final_args (c : Dev nD) :
    GA (V m c main_v55) (V m c main_arg2) (V m c main_v56)
      = G (Cert.ReferenceIdeal.ReadP.val_main_v55 (F := Ideal) (m ((c : Thread nD τ).loc main_arg0)) (m ((c : Thread nD τ).loc main_arg1)))
          (m ((c : Thread nD τ).loc main_arg2)) (m ((c : Thread nD τ).loc main_arg3)) := by
  rw [Entry.propagated m c, V_main_arg2 m c, Entry.bias_row m c]
  exact GA_shapeCast _ _ _ _

/-- The kernel's run, re-posted: the result array at the specification, the arguments unchanged. -/
theorem run : θ_run defs (onTc (τ := τ) (main (F := Ideal))) ⟨m, fun _ => 0, ρ⟩ fun r => ∀ c : Dev nD,
      r.2.mem ((c : Thread nD τ).loc main_v57)
        = G (Cert.ReferenceIdeal.ReadP.val_main_v55 (F := Ideal) (m ((c : Thread nD τ).loc main_arg0)) (m ((c : Thread nD τ).loc main_arg1)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (final_args m c)), (h c).2⟩)
    (run_blocks m ρ)

end Cert.KernelIdeal.ArrayValue

end
-- ==== Proof.lean ====
/-
  A two-hop graph propagation followed by a linear layer and a row log-softmax: the kernel against its reference.

  Both programs first propagate the node features over the graph twice with the symmetric degree normalisation
  (self-loops added); they do it with the same host operations in the same order, so that stage is ONE term on both
  sides and is never opened. The kernel then hands the propagated features `h` [170000, 128], the weights `W`
  [40, 128] and the bias `b` to a tiled body which, per block of 2000 rows, forms the logits `h · Wᵀ + b`, subtracts
  each row's maximum, and subtracts the logarithm of the row's summed exponentials. The reference computes
  `h · Wᵀ + b` over the whole array and applies log-softmax along the 40 classes: the same maximum, shift,
  exponentials, sum, logarithm and difference, with one more maximum against the fold's own starting value.

  On the extended reals the two results are the same function of the arguments, entry by entry:
  `G h W b (r, c) = L r c - M r - log (∑ c', exp (L r c' - M r))`, `L r c = (∑ k, h r k · W c k) + b c`,
  `M r` the maximum over the row folded from the value of the word `0xFF800000`. The narrowings to bf16 in the body
  are the identity there, the product into a zero accumulator is the plain sum, and the extra maximum is absorbed
  because the fold already dominates its starting value. No algebraic law that could fail at an infinity is used, so
  the finiteness of the inputs is not needed for the value; the frames are the generated ones. The idealization
  rewrote nothing, so `preserves` has no content.
-/
import proofs.«128257_j78030965834313_1_alg».proof.Defs
import proofs.«128257_j78030965834313_1_alg».proof.Proof.Gen.Kernel
import proofs.«128257_j78030965834313_1_alg».proof.Proof.Gen.Kernel.Skeleton
import proofs.«128257_j78030965834313_1_alg».proof.Proof.Gen.Kernel.Launch
import proofs.«128257_j78030965834313_1_alg».proof.Proof.Gen.Kernel.Points
import proofs.«128257_j78030965834313_1_alg».proof.Proof.Gen.Kernel.Frame
import proofs.«128257_j78030965834313_1_alg».proof.Proof.Gen.KernelIdeal
import proofs.«128257_j78030965834313_1_alg».proof.Proof.Gen.KernelIdeal.Skeleton
import proofs.«128257_j78030965834313_1_alg».proof.Proof.Gen.KernelIdeal.Launch
import proofs.«128257_j78030965834313_1_alg».proof.Proof.Gen.KernelIdeal.Points
import proofs.«128257_j78030965834313_1_alg».proof.Proof.Gen.KernelIdeal.Frame
import proofs.«128257_j78030965834313_1_alg».proof.Proof.Gen.ReferenceIdeal
import proofs.«128257_j78030965834313_1_alg».proof.Proof.Gen.Pre_finite_inputs
import proofs.«128257_j78030965834313_1_alg».proof.Proof.Gen.KernelIdeal.Value
import proofs.«128257_j78030965834313_1_alg».proof.Proof.RefRead
import proofs.«128257_j78030965834313_1_alg».proof.Proof.RefFold
import proofs.«128257_j78030965834313_1_alg».proof.Proof.RefValue
import proofs.«128257_j78030965834313_1_alg».proof.Proof.KernelValue
import Idealize.ShloMosaic.Adequacy
import Idealize.ShloMosaic.Init

noncomputable section

namespace Cert.Proof

open Idealize.ShloMosaic Idealize.SL.Sem

-- Used through their lemmas only: on the extended reals these are sums and folds over millions of entries.
attribute [local irreducible] Idealize.ShloMosaic.StableHlo.after Cert.ReferenceIdeal.ReadP.val_main_v55
  Cert.ReferenceIdeal.ReadP.val_main_v61 Cert.KernelIdeal.Gen.k0_pay1

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run over the stages, with the result forgotten. -/
theorem frame_referenceIdeal : Cert.frame_ReferenceIdeal := fun m ρ _ =>
  (θ_run Cert.ReferenceIdeal.defs _ _).mono (fun _ h c => (h c).2) (Cert.ReferenceIdeal.Fold.run (F := Ideal) m ρ)

/-- Both runs end with the result array at `G` of the propagated features, the weights and the bias; the arguments
    agree, so the two arrays are equal. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Fold.run (F := Ideal) m' ρ')
  rw [Cert.ReferenceIdeal.RefValue.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
